-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S512x128 .f32) (main_arg1 : FVec F S512x128 .f32) (main_arg2 : FVec F S256x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S128x512 : Shape := ⟨2, ![128, 512]⟩
abbrev S1x512 : Shape := ⟨2, ![1, 512]⟩
abbrev S1x1 : Shape := ⟨2, ![1, 1]⟩
abbrev S32x128 : Shape := ⟨2, ![32, 128]⟩
abbrev S128x128 : Shape := ⟨2, ![128, 128]⟩
abbrev S32x512 : Shape := ⟨2, ![32, 512]⟩
abbrev S32x1x512 : Shape := ⟨3, ![32, 1, 512]⟩
abbrev S1x128x512 : Shape := ⟨3, ![1, 128, 512]⟩
abbrev S32x128x512 : Shape := ⟨3, ![32, 128, 512]⟩
abbrev S1x1x512 : Shape := ⟨3, ![1, 1, 512]⟩
abbrev S4096x512 : Shape := ⟨2, ![4096, 512]⟩
abbrev S4096x1 : Shape := ⟨2, ![4096, 1]⟩

abbrev nBuf : Space → Nat
  | .hbm => 14
  | .vmem => 13
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S128x512, .f32⟩
  | .hbm, ⟨9, _⟩ => ⟨S128x512, .f32⟩
  | .hbm, ⟨10, _⟩ => ⟨S1x512, .f32⟩
  | .hbm, ⟨11, _⟩ => ⟨S1x512, .f32⟩
  | .hbm, ⟨12, _⟩ => ⟨S1x1, .f32⟩
  | .hbm, ⟨13, _⟩ => ⟨S512x512, .f32⟩
  | .local _ .vmem, ⟨0, _⟩ => ⟨S32x128, .f32⟩
  | .local _ .vmem, ⟨1, _⟩ => ⟨S32x128, .f32⟩
  | .local _ .vmem, ⟨2, _⟩ => ⟨S128x128, .f32⟩
  | .local _ .vmem, ⟨3, _⟩ => ⟨S128x128, .f32⟩
  | .local _ .vmem, ⟨4, _⟩ => ⟨S128x512, .f32⟩
  | .local _ .vmem, ⟨5, _⟩ => ⟨S128x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S512x1, .f32⟩
  | .local _ .vmem, ⟨10, _⟩ => ⟨S1x1, .f32⟩
  | .local _ .vmem, ⟨11, _⟩ => ⟨S32x128, .f32⟩
  | .local _ .vmem, ⟨12, _⟩ => ⟨S32x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S256x512_S128x512_0_0 : S256x512.Slices ![0, 0] S128x512
  slices_S256x512_S128x512_128_0 : S256x512.Slices ![128, 0] S128x512
  shapeCasts_S512_S1x512 : S512.ShapeCasts S1x512
  shapeCasts_S1_S1x1 : S1.ShapeCasts S1x1
  inb_S32x128_S32x128_0_0 : ∀ a, (![0, 0] : Fin 2 → Nat) a + S32x128.size a ≤ S32x128.size a
  h_S32x128 : 0 < S32x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S32x512_S32x1x512 : S32x512.ShapeCasts S32x1x512
  shapeCasts_S128x512_S1x128x512 : S128x512.ShapeCasts S1x128x512
  broadcasts_S32x1x512_S32x128x512 : S32x1x512.Broadcasts S32x128x512
  broadcasts_S1x128x512_S32x128x512 : S1x128x512.Broadcasts S32x128x512
  shapeCasts_S1x512_S1x1x512 : S1x512.ShapeCasts S1x1x512
  broadcasts_S1x1x512_S32x128x512 : S1x1x512.Broadcasts S32x128x512
  shapeCasts_S32x128x512_S4096x512 : S32x128x512.ShapeCasts S4096x512
  inb_S512x512_S512x512_0_0 : ∀ a, (![0, 0] : Fin 2 → Nat) a + S512x512.size a ≤ S512x512.size a
  h_S512x512 : 0 < S512x512.numel
  broadcasts_S1x512_S4096x512 : S1x512.Broadcasts S4096x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S32x128 : S4096x1.ShapeCasts S32x128
  dot_S32x128_S128x512_S32x512_1_0_0_1_n_n_wf : DotDims.WF S32x128 S128x512 S32x512 [1] [0] [0] [1] [] []
  dot_S128x128_S128x512_S128x512_1_0_0_1_n_n_wf : DotDims.WF S128x128 S128x512 S128x512 [1] [0] [0] [1] [] []
  dot_S4096x512_S512x512_S4096x512_1_0_0_1_n_n_wf : DotDims.WF S4096x512 S512x512 S4096x512 [1] [0] [0] [1] [] []
  dot_S4096x512_S512x1_S4096x1_1_0_0_1_n_n_wf : DotDims.WF S4096x512 S512x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S512x128.size a
  hwx0_0 : ∀ i : grid0.Coords, EltTy.bits .f32 = 32 ∨ (Rect.block (s := S512x128) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x128.size a
  hwx0_1 : ∀ i : grid0.Coords, EltTy.bits .f32 = 32 ∨ (Rect.block (s := S512x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S512x512.size a
  hwx0_9 : ∀ i : grid0.Coords, EltTy.bits .f32 = 32 ∨ (Rect.block (s := S512x512) S32x128.size (cc0_transform_9 i) (hinb0_9 i)).WholeWords (EltTy.packing .f32)

variable [Facts₀]

def dot_S32x128_S128x512_S32x512_1_0_0_1_n_n : DotDims S32x128 S128x512 S32x512 where
  lhsContracting := [1]
  rhsContracting := [0]
  lhsNonContracting := [0]
  rhsNonContracting := [1]
  lhsBatch := []
  rhsBatch := []
  wf := dot_S32x128_S128x512_S32x512_1_0_0_1_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

abbrev win0_0 : Pipeline.Window sig grid0 :=
  Pipeline.Window.ofSpec (Memref.whole main_arg0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S32x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S512x128 : Shape := ⟨2, ![512, 128]⟩
abbrev S256x512 : Shape := ⟨2, ![256, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1x512x128 : Shape := ⟨3, ![1, 512, 128]⟩
abbrev S512x512x128 : Shape := ⟨3, ![512, 512, 128]⟩
abbrev S512x1x128 : Shape := ⟨3, ![512, 1, 128]⟩
abbrev S512x512x256 : Shape := ⟨3, ![512, 512, 256]⟩
abbrev S262144x256 : Shape := ⟨2, ![262144, 256]⟩
abbrev S262144x512 : Shape := ⟨2, ![262144, 512]⟩
abbrev S1x512 : Shape := ⟨2, ![1, 512]⟩
abbrev S_ : Shape := ⟨0, ![]⟩
abbrev S262144x1 : Shape := ⟨2, ![262144, 1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S256x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S1x512x128, .f32⟩
  | .hbm, ⟨9, _⟩ => ⟨S512x512x128, .f32⟩
  | .hbm, ⟨10, _⟩ => ⟨S512x1x128, .f32⟩
  | .hbm, ⟨11, _⟩ => ⟨S512x512x128, .f32⟩
  | .hbm, ⟨12, _⟩ => ⟨S512x512x256, .f32⟩
  | .hbm, ⟨13, _⟩ => ⟨S262144x256, .f32⟩
  | .hbm, ⟨14, _⟩ => ⟨S262144x512, .f32⟩
  | .hbm, ⟨15, _⟩ => ⟨S1x512, .f32⟩
  | .hbm, ⟨16, _⟩ => ⟨S262144x512, .f32⟩
  | .hbm, ⟨17, _⟩ => ⟨S262144x512, .f32⟩
  | .hbm, ⟨18, _⟩ => ⟨S_, .f32⟩
  | .hbm, ⟨19, _⟩ => ⟨S262144x512, .f32⟩
  | .hbm, ⟨20, _⟩ => ⟨S262144x512, .f32⟩
  | .hbm, ⟨21, _⟩ => ⟨S262144x512, .f32⟩
  | .hbm, ⟨22, _⟩ => ⟨S1x512, .f32⟩
  | .hbm, ⟨23, _⟩ => ⟨S262144x512, .f32⟩
  | .hbm, ⟨24, _⟩ => ⟨S262144x512, .f32⟩
  | .hbm, ⟨25, _⟩ => ⟨S_, .f32⟩
  | .hbm, ⟨26, _⟩ => ⟨S262144x512, .f32⟩
  | .hbm, ⟨27, _⟩ => ⟨S262144x512, .f32⟩
  | .hbm, ⟨28, _⟩ => ⟨S262144x1, .f32⟩
  | .hbm, ⟨29, _⟩ => ⟨S1x1, .f32⟩
  | .hbm, ⟨30, _⟩ => ⟨S262144x1, .f32⟩
  | .hbm, ⟨31, _⟩ => ⟨S262144x1, .f32⟩
  | .hbm, ⟨32, _⟩ => ⟨S512x512, .f32⟩
  | .hbm, ⟨33, _⟩ => ⟨S512x512, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S512x128_S1x512x128_1_2 : S512x128.BroadcastsInDim S1x512x128 (![1, 2] : Fin 2 → Fin S1x512x128.rank)
  bcast_S1x512x128_S512x512x128_0_1_2 : S1x512x128.BroadcastsInDim S512x512x128 (![0, 1, 2] : Fin 3 → Fin S512x512x128.rank)
  bcast_S512x128_S512x1x128_0_2 : S512x128.BroadcastsInDim S512x1x128 (![0, 2] : Fin 2 → Fin S512x1x128.rank)
  bcast_S512x1x128_S512x512x128_0_1_2 : S512x1x128.BroadcastsInDim S512x512x128 (![0, 1, 2] : Fin 3 → Fin S512x512x128.rank)
  concatenates_S512x512x128_S512x512x128_S512x512x256_d2 : Shape.Concatenates [S512x512x128, S512x512x128] S512x512x256 2
  shapeCasts_S512x512x256_S262144x256 : S512x512x256.ShapeCasts S262144x256
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S512x512 : S262144x1.ShapeCasts S512x512
  transposes_S512x512_S512x512_1_0 : S512x512.Transposes [1, 0] S512x512
  dot_S262144x256_S256x512_S262144x512_1_0_0_1_n_n_wf : DotDims.WF S262144x256 S256x512 S262144x512 [1] [0] [0] [1] [] []
  dot_S262144x512_S512x512_S262144x512_1_0_0_1_n_n_wf : DotDims.WF S262144x512 S512x512 S262144x512 [1] [0] [0] [1] [] []
  dot_S262144x512_S512x1_S262144x1_1_0_0_1_n_n_wf : DotDims.WF S262144x512 S512x1 S262144x1 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x512_S262144x512_1_0_0_1_n_n : DotDims S262144x512 S512x512 S262144x512 where
  lhsContracting := [1]
  rhsContracting := [0]
  lhsNonContracting := [0]
  rhsNonContracting := [1]
  lhsBatch := []
  rhsBatch := []
  wf := dot_S262144x512_S512x512_S262144x512_1_0_0_1_n_n_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf

class Facts : Prop extends Facts₀ where

variable [Facts]
-- ==== Proof.PairScore.lean ====
/-
  The score of one pair of rows, and the array of all 512 × 512 scores.

  A pair (u, v) of 128-vectors goes through a three-layer perceptron: a first affine layer on the two rows laid
  end to end (its 256 × 512 matrix cut into the half A that meets u and the half B that meets v), a rectifier, a
  second affine layer 512 → 512, a rectifier, and a last affine layer 512 → 1. Everything is over the extended
  reals, where + and · make a commutative monoid each, so finite sums may be split and regrouped freely; no
  distributivity and no cancellation is used anywhere, hence no finiteness of the inputs either.

  The one law between the two programs is `sum_halves`: a sum over 256 indices is the sum over the first 128 plus
  the sum over the last 128. The product of the joined row with the first matrix is therefore the sum of u · A and
  v · B, which is how the tiled program computes it.
-/
import Idealize.ShloMosaic.PureOps.Ideal
import Idealize.ShloMosaic.Lib.ValueIdx
import Mathlib.Algebra.BigOperators.Fin

noncomputable section

open scoped BigOperators

namespace Cert.Critic

open Idealize.ShloMosaic Idealize.ShloMosaic.ValueIdx

/-- Position `k` of the first half of a joined row of 256. -/
abbrev lo (k : Fin 128) : Fin 256 := ⟨k.val, by omega⟩
/-- Position `k` of the second half of a joined row of 256. -/
abbrev hi (k : Fin 128) : Fin 256 := ⟨128 + k.val, by omega⟩

/-- A sum over 256 indices is the sum over its first half plus the sum over its second half. -/
theorem sum_halves {M : Type*} [AddCommMonoid M] (f : Fin 256 → M) :
    ∑ k, f k = (∑ k : Fin 128, f (lo k)) + ∑ k : Fin 128, f (hi k) := by
  have h := Fin.sum_univ_add (a := 128) (b := 128) (fun i : Fin (128 + 128) => f i)
  exact h

/-- The perceptron's score of the pair (u, v): first layer `u · A + v · B + c1`, rectified; second layer
    `· W + c2`, rectified; last layer `· w + c3`. -/
def pairScore (u v : Fin 128 → EReal) (A B : Fin 128 → Fin 512 → EReal) (c1 : Fin 512 → EReal)
    (W : Fin 512 → Fin 512 → EReal) (c2 : Fin 512 → EReal) (w : Fin 512 → EReal) (c3 : EReal) : EReal :=
  (∑ g : Fin 512, max ((∑ h : Fin 512, max (((∑ k : Fin 128, u k * A k h) + ∑ k : Fin 128, v k * B k h) + c1 h) 0 * W h g) + c2 g) 0 * w g) + c3

/-- The score of row `a` of `x` against row `b` of `y`, the parameters read off their arrays: the first matrix's rows
    0 … 127 meet `x`, its rows 128 … 255 meet `y`. -/
def score (x y : (⟨2, ![512, 128]⟩ : Shape).Idx → EReal) (W1 : (⟨2, ![256, 512]⟩ : Shape).Idx → EReal)
    (b1 : (⟨1, ![512]⟩ : Shape).Idx → EReal) (W2 : (⟨2, ![512, 512]⟩ : Shape).Idx → EReal)
    (b2 : (⟨1, ![512]⟩ : Shape).Idx → EReal) (W3 : (⟨2, ![512, 1]⟩ : Shape).Idx → EReal)
    (b3 : (⟨1, ![1]⟩ : Shape).Idx → EReal) (a b : Fin 512) : EReal :=
  pairScore (fun k => x (ix2 a k)) (fun k => y (ix2 b k)) (fun k h => W1 (ix2 (lo k) h)) (fun k h => W1 (ix2 (hi k) h))
    (fun h => b1 (ix1 h)) (fun h g => W2 (ix2 h g)) (fun g => b2 (ix1 g)) (fun g => W3 (ix2 g (0 : Fin 1))) (b3 (ix1 (0 : Fin 1)))

/-- All scores: entry (a, b) is the score of row `a` of `x` against row `b` of `y`. -/
def scores (x y : (⟨2, ![512, 128]⟩ : Shape).Idx → EReal) (W1 : (⟨2, ![256, 512]⟩ : Shape).Idx → EReal)
    (b1 : (⟨1, ![512]⟩ : Shape).Idx → EReal) (W2 : (⟨2, ![512, 512]⟩ : Shape).Idx → EReal)
    (b2 : (⟨1, ![512]⟩ : Shape).Idx → EReal) (W3 : (⟨2, ![512, 1]⟩ : Shape).Idx → EReal)
    (b3 : (⟨1, ![1]⟩ : Shape).Idx → EReal) : (⟨2, ![512, 512]⟩ : Shape).Idx → EReal :=
  fun i => score x y W1 b1 W2 b2 W3 b3 (i 0) (i 1)

theorem scores_apply (x y : (⟨2, ![512, 128]⟩ : Shape).Idx → EReal) (W1 : (⟨2, ![256, 512]⟩ : Shape).Idx → EReal)
    (b1 : (⟨1, ![512]⟩ : Shape).Idx → EReal) (W2 : (⟨2, ![512, 512]⟩ : Shape).Idx → EReal)
    (b2 : (⟨1, ![512]⟩ : Shape).Idx → EReal) (W3 : (⟨2, ![512, 1]⟩ : Shape).Idx → EReal)
    (b3 : (⟨1, ![1]⟩ : Shape).Idx → EReal) (a b : Fin 512) :
    scores x y W1 b1 W2 b2 W3 b3 (ix2 a b) = score x y W1 b1 W2 b2 W3 b3 a b := rfl

end Cert.Critic

end
-- ==== Proof.LibPlainMatmul.lean ====
/-
  A matrix product of an M × K by a K × N matrix into a zero accumulator, read at one entry over the extended
  reals: entry (a, b) is the sum over k of left (a, k) times right (k, b).

  The product's dimension numbers come as a record `D`; all that is used of it is that it contracts one axis of
  extent K, that a left operand index keeps the output's row and takes the contraction position as its column, and
  that a right operand index takes the contraction position as its row and keeps the output's column. The sum over
  the record's one-axis contraction index set is re-indexed over `Fin K`.
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- Entry (a, b) of a plain two-dimensional matrix product into the zero accumulator is `∑ k, l (a, k) · r (k, b)`. -/
theorem matmul_zero_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 a b) ((contrEquiv1 D K hr hs).symm k) = ix2 a k := funext fun d => Fin.ext (by
    match d with
    | ⟨0, _⟩ => exact l0 _ _
    | ⟨1, _⟩ => exact (l1 _ _).trans hk)
  have er : D.rhsIdx (ix2 a b) ((contrEquiv1 D K hr hs).symm k) = ix2 k b := funext fun d => Fin.ext (by
    match d with
    | ⟨0, _⟩ => exact (r0 _ _).trans hk
    | ⟨1, _⟩ => exact r1 _ _)
  rw [el, er]

end Cert.LibPlainMatmul

end
-- ==== Proof.TileScore.lean ====
/-
  What the tiled program computes for one tile, entry by entry.

  At a grid point the body holds a 32-row block of `x`, a 128-row block of `y` and the parameters. It forms the two
  half-products `x-block · A` (32 × 512) and `y-block · B` (128 × 512), adds them over all 32 × 128 pairs together
  with the first bias, rectifies, flattens the pairs to 4096 rows (pair (p, q) is row p · 128 + q), applies the second
  layer and the rectifier, then the last layer, and folds the column of 4096 results back into a 32 × 128 tile.
  Entry (p, q) of the tile is therefore the perceptron's score of row `p` of the x-block against row `q` of the y-block.
  Changes of float format are the identity on extended reals, and a matrix product into a zero accumulator is the
  plain sum of products.
-/
import proofs.«172054_j31207232372863_1_alg».proof.Proof.Gen.KernelIdeal.Skeleton
import proofs.«172054_j31207232372863_1_alg».proof.Proof.PairScore
import proofs.«172054_j31207232372863_1_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.Critic.Tile

open Cert.KernelIdeal Cert.KernelIdeal.Gen
open Idealize.ShloMosaic Idealize.ShloMosaic.ValueIdx

/-! ## The four matrix products' index maps -/

theorem lhsA_0 (i : S32x512.Idx) (q : dot_S32x128_S128x512_S32x512_1_0_0_1_n_n.contr.Idx) :
    (dot_S32x128_S128x512_S32x512_1_0_0_1_n_n.lhsIdx i q 0).val = (i 0).val := by
  unfold DotDims.lhsIdx
  rw [dif_neg (show ¬(0 : Fin S32x128.rank) ∈ dot_S32x128_S128x512_S32x512_1_0_0_1_n_n.lhsBatch by decide), dif_pos (show (0 : Fin S32x128.rank) ∈ dot_S32x128_S128x512_S32x512_1_0_0_1_n_n.lhsNonContracting by decide)]
  rfl
theorem lhsA_1 (i : S32x512.Idx) (q : dot_S32x128_S128x512_S32x512_1_0_0_1_n_n.contr.Idx) :
    (dot_S32x128_S128x512_S32x512_1_0_0_1_n_n.lhsIdx i q 1).val = (q ⟨0, by decide⟩).val :=
  dot_S32x128_S128x512_S32x512_1_0_0_1_n_n.lhsIdx_val_of_single rfl i q
theorem rhsA_0 (i : S32x512.Idx) (q : dot_S32x128_S128x512_S32x512_1_0_0_1_n_n.contr.Idx) :
    (dot_S32x128_S128x512_S32x512_1_0_0_1_n_n.rhsIdx i q 0).val = (q ⟨0, by decide⟩).val :=
  dot_S32x128_S128x512_S32x512_1_0_0_1_n_n.rhsIdx_val_of_single rfl i q
theorem rhsA_1 (i : S32x512.Idx) (q : dot_S32x128_S128x512_S32x512_1_0_0_1_n_n.contr.Idx) :
    (dot_S32x128_S128x512_S32x512_1_0_0_1_n_n.rhsIdx i q 1).val = (i 1).val := by
  unfold DotDims.rhsIdx
  rw [dif_neg (show ¬(1 : Fin S128x512.rank) ∈ dot_S32x128_S128x512_S32x512_1_0_0_1_n_n.rhsBatch by decide), dif_pos (show (1 : Fin S128x512.rank) ∈ dot_S32x128_S128x512_S32x512_1_0_0_1_n_n.rhsNonContracting by decide)]
  rfl

theorem lhsB_0 (i : S128x512.Idx) (q : dot_S128x128_S128x512_S128x512_1_0_0_1_n_n.contr.Idx) :
    (dot_S128x128_S128x512_S128x512_1_0_0_1_n_n.lhsIdx i q 0).val = (i 0).val := by
  unfold DotDims.lhsIdx
  rw [dif_neg (show ¬(0 : Fin S128x128.rank) ∈ dot_S128x128_S128x512_S128x512_1_0_0_1_n_n.lhsBatch by decide), dif_pos (show (0 : Fin S128x128.rank) ∈ dot_S128x128_S128x512_S128x512_1_0_0_1_n_n.lhsNonContracting by decide)]
  rfl
theorem lhsB_1 (i : S128x512.Idx) (q : dot_S128x128_S128x512_S128x512_1_0_0_1_n_n.contr.Idx) :
    (dot_S128x128_S128x512_S128x512_1_0_0_1_n_n.lhsIdx i q 1).val = (q ⟨0, by decide⟩).val :=
  dot_S128x128_S128x512_S128x512_1_0_0_1_n_n.lhsIdx_val_of_single rfl i q
theorem rhsB_0 (i : S128x512.Idx) (q : dot_S128x128_S128x512_S128x512_1_0_0_1_n_n.contr.Idx) :
    (dot_S128x128_S128x512_S128x512_1_0_0_1_n_n.rhsIdx i q 0).val = (q ⟨0, by decide⟩).val :=
  dot_S128x128_S128x512_S128x512_1_0_0_1_n_n.rhsIdx_val_of_single rfl i q
theorem rhsB_1 (i : S128x512.Idx) (q : dot_S128x128_S128x512_S128x512_1_0_0_1_n_n.contr.Idx) :
    (dot_S128x128_S128x512_S128x512_1_0_0_1_n_n.rhsIdx i q 1).val = (i 1).val := by
  unfold DotDims.rhsIdx
  rw [dif_neg (show ¬(1 : Fin S128x512.rank) ∈ dot_S128x128_S128x512_S128x512_1_0_0_1_n_n.rhsBatch by decide), dif_pos (show (1 : Fin S128x512.rank) ∈ dot_S128x128_S128x512_S128x512_1_0_0_1_n_n.rhsNonContracting by decide)]
  rfl

theorem lhsW_0 (i : S4096x512.Idx) (q : dot_S4096x512_S512x512_S4096x512_1_0_0_1_n_n.contr.Idx) :
    (dot_S4096x512_S512x512_S4096x512_1_0_0_1_n_n.lhsIdx i q 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem lhsW_1 (i : S4096x512.Idx) (q : dot_S4096x512_S512x512_S4096x512_1_0_0_1_n_n.contr.Idx) :
    (dot_S4096x512_S512x512_S4096x512_1_0_0_1_n_n.lhsIdx i q 1).val = (q ⟨0, by decide⟩).val :=
  dot_S4096x512_S512x512_S4096x512_1_0_0_1_n_n.lhsIdx_val_of_single rfl i q
theorem rhsW_0 (i : S4096x512.Idx) (q : dot_S4096x512_S512x512_S4096x512_1_0_0_1_n_n.contr.Idx) :
    (dot_S4096x512_S512x512_S4096x512_1_0_0_1_n_n.rhsIdx i q 0).val = (q ⟨0, by decide⟩).val :=
  dot_S4096x512_S512x512_S4096x512_1_0_0_1_n_n.rhsIdx_val_of_single rfl i q
theorem rhsW_1 (i : S4096x512.Idx) (q : dot_S4096x512_S512x512_S4096x512_1_0_0_1_n_n.contr.Idx) :
    (dot_S4096x512_S512x512_S4096x512_1_0_0_1_n_n.rhsIdx i q 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

theorem lhsO_0 (i : S4096x1.Idx) (q : dot_S4096x512_S512x1_S4096x1_1_0_0_1_n_n.contr.Idx) :
    (dot_S4096x512_S512x1_S4096x1_1_0_0_1_n_n.lhsIdx i q 0).val = (i 0).val := by
  unfold DotDims.lhsIdx
  rw [dif_neg (show ¬(0 : Fin S4096x512.rank) ∈ dot_S4096x512_S512x1_S4096x1_1_0_0_1_n_n.lhsBatch by decide), dif_pos (show (0 : Fin S4096x512.rank) ∈ dot_S4096x512_S512x1_S4096x1_1_0_0_1_n_n.lhsNonContracting by decide)]
  rfl
theorem lhsO_1 (i : S4096x1.Idx) (q : dot_S4096x512_S512x1_S4096x1_1_0_0_1_n_n.contr.Idx) :
    (dot_S4096x512_S512x1_S4096x1_1_0_0_1_n_n.lhsIdx i q 1).val = (q ⟨0, by decide⟩).val :=
  dot_S4096x512_S512x1_S4096x1_1_0_0_1_n_n.lhsIdx_val_of_single rfl i q
theorem rhsO_0 (i : S4096x1.Idx) (q : dot_S4096x512_S512x1_S4096x1_1_0_0_1_n_n.contr.Idx) :
    (dot_S4096x512_S512x1_S4096x1_1_0_0_1_n_n.rhsIdx i q 0).val = (q ⟨0, by decide⟩).val :=
  dot_S4096x512_S512x1_S4096x1_1_0_0_1_n_n.rhsIdx_val_of_single rfl i q
theorem rhsO_1 (i : S4096x1.Idx) (q : dot_S4096x512_S512x1_S4096x1_1_0_0_1_n_n.contr.Idx) :
    (dot_S4096x512_S512x1_S4096x1_1_0_0_1_n_n.rhsIdx i q 1).val = (i 1).val := by
  unfold DotDims.rhsIdx
  rw [dif_neg (show ¬(1 : Fin S512x1.rank) ∈ dot_S4096x512_S512x1_S4096x1_1_0_0_1_n_n.rhsBatch by decide), dif_pos (show (1 : Fin S512x1.rank) ∈ dot_S4096x512_S512x1_S4096x1_1_0_0_1_n_n.rhsNonContracting by decide)]
  rfl

/-! ## The body's stages -/

/-- The x-block times the first half of the first matrix. -/
def projX (x0 : Vec Ideal S32x128 .f32) (x2 : Vec Ideal S128x512 .f32) : FVec Ideal S32x512 .f32 :=
  matmul dot_S32x128_S128x512_S32x512_1_0_0_1_n_n none (truncf .bf16 x0 bitsLt_bf16_f32)
    (truncf .bf16 (shapeCast S128x512 x2 shapeCasts_S128x512_S128x512) bitsLt_bf16_f32) (constant S32x512 .f32 0x00000000#32)

/-- The y-block times the second half of the first matrix. -/
def projY (x1 : Vec Ideal S128x128 .f32) (x3 : Vec Ideal S128x512 .f32) : FVec Ideal S128x512 .f32 :=
  matmul dot_S128x128_S128x512_S128x512_1_0_0_1_n_n none (truncf .bf16 x1 bitsLt_bf16_f32)
    (truncf .bf16 (shapeCast S128x512 x3 shapeCasts_S128x512_S128x512) bitsLt_bf16_f32) (constant S128x512 .f32 0x00000000#32)

/-- The first hidden layer over all pairs, flattened: row `p · 128 + q` is pair (p, q). -/
def layer1 (u : FVec Ideal S32x512 .f32) (v : FVec Ideal S128x512 .f32) (x4 : Vec Ideal S1x512 .f32) : FVec Ideal S4096x512 .bf16 :=
  truncf .bf16 (shapeCast S4096x512 (maximumf (addf (addf
      (broadcastTo S32x128x512 (shapeCast S32x1x512 u shapeCasts_S32x512_S32x1x512) broadcasts_S32x1x512_S32x128x512)
      (broadcastTo S32x128x512 (shapeCast S1x128x512 v shapeCasts_S128x512_S1x128x512) broadcasts_S1x128x512_S32x128x512))
      (broadcastTo S32x128x512 (shapeCast S1x1x512 (shapeCast S1x512 x4 shapeCasts_S1x512_S1x512) shapeCasts_S1x512_S1x1x512) broadcasts_S1x1x512_S32x128x512))
      (broadcast S32x128x512 (Scalar.ofBits .f32 0x00000000#32))) shapeCasts_S32x128x512_S4096x512) bitsLt_bf16_f32

/-- The second hidden layer on the 4096 flattened pairs. -/
def layer2 (a : FVec Ideal S4096x512 .bf16) (x5 : Vec Ideal S512x512 .f32) (x6 : Vec Ideal S1x512 .f32) : FVec Ideal S4096x512 .bf16 :=
  truncf .bf16 (maximumf (addf
      (matmul dot_S4096x512_S512x512_S4096x512_1_0_0_1_n_n none a (truncf .bf16 x5 bitsLt_bf16_f32) (constant S4096x512 .f32 0x00000000#32))
      (broadcastTo S4096x512 (shapeCast S1x512 x6 shapeCasts_S1x512_S1x512) broadcasts_S1x512_S4096x512))
      (broadcast S4096x512 (Scalar.ofBits .f32 0x00000000#32))) bitsLt_bf16_f32

/-- The last layer on the 4096 flattened pairs, folded back into the 32 × 128 tile. -/
def layer3 (a : FVec Ideal S4096x512 .bf16) (x7 : Vec Ideal S512x1 .f32) (x8 : Vec Ideal S1x1 .f32) : FVec Ideal S32x128 .f32 :=
  shapeCast S32x128 (addf
      (matmul dot_S4096x512_S512x1_S4096x1_1_0_0_1_n_n none a (truncf .bf16 x7 bitsLt_bf16_f32) (constant S4096x1 .f32 0x00000000#32))
      (broadcastTo S4096x1 (shapeCast S1x1 x8 shapeCasts_S1x1_S1x1) broadcasts_S1x1_S4096x1)) shapeCasts_S4096x1_S32x128

/-- The body's stored value is the three layers applied to the two half-products. -/
theorem body_eq (x0 : Vec Ideal S32x128 .f32) (x1 : Vec Ideal S128x128 .f32) (x2 x3 : Vec Ideal S128x512 .f32)
    (x4 : Vec Ideal S1x512 .f32) (x5 : Vec Ideal S512x512 .f32) (x6 : Vec Ideal S1x512 .f32) (x7 : Vec Ideal S512x1 .f32)
    (x8 : Vec Ideal S1x1 .f32) :
    k0_pay1 (F := Ideal) (k0_pay2 x0 x1 x2 x3 x4 x5 x6) x7 x8
      = layer3 (layer2 (layer1 (projX x0 x2) (projY x1 x3) x4) x5 x6) x7 x8 := rfl

/-! ## Each stage at an entry -/

theorem projX_apply (x0 : Vec Ideal S32x128 .f32) (x2 : Vec Ideal S128x512 .f32) (p : Fin 32) (h : Fin 512) :
    projX x0 x2 (ix2 p h) = ∑ k : Fin 128, x0 (ix2 p k) * x2 (ix2 k h) := by
  unfold projX
  refine (Cert.LibPlainMatmul.matmul_zero_apply dot_S32x128_S128x512_S32x512_1_0_0_1_n_n rfl rfl lhsA_0 lhsA_1 rhsA_0 rhsA_1 none _ _ p h).trans ?_
  refine Finset.sum_congr rfl fun k _ => ?_
  show x0 (ix2 p k) * shapeCast S128x512 x2 shapeCasts_S128x512_S128x512 (ix2 k h) = _
  rw [shapeCast_self]

theorem projY_apply (x1 : Vec Ideal S128x128 .f32) (x3 : Vec Ideal S128x512 .f32) (q : Fin 128) (h : Fin 512) :
    projY x1 x3 (ix2 q h) = ∑ k : Fin 128, x1 (ix2 q k) * x3 (ix2 k h) := by
  unfold projY
  refine (Cert.LibPlainMatmul.matmul_zero_apply dot_S128x128_S128x512_S128x512_1_0_0_1_n_n rfl rfl lhsB_0 lhsB_1 rhsB_0 rhsB_1 none _ _ q h).trans ?_
  refine Finset.sum_congr rfl fun k _ => ?_
  show x1 (ix2 q k) * shapeCast S128x512 x3 shapeCasts_S128x512_S128x512 (ix2 k h) = _
  rw [shapeCast_self]

/-- Row `p · 128 + q` of the first hidden layer is `max (u (p, ·) + v (q, ·) + bias) 0`. -/
theorem layer1_apply (u : FVec Ideal S32x512 .f32) (v : FVec Ideal S128x512 .f32) (x4 : Vec Ideal S1x512 .f32)
    (p : Fin 32) (q : Fin 128) (r : Fin 4096) (hr : r.val = p.val * 128 + q.val) (h : Fin 512) :
    layer1 u v x4 (ix2 r h) = max ((u (ix2 p h) + v (ix2 q h)) + x4 (ix2 (0 : Fin 1) h)) 0 := by
  have hp := p.isLt
  have hq := q.isLt
  have hh := h.isLt
  unfold layer1
  rw [truncf_apply]
  refine (shapeCast_apply _ shapeCasts_S32x128x512_S4096x512 (ix2 r h) (ix3 p q h) (by
    rewrite [Shape.rowMajor_val_three, Shape.rowMajor_val_two]
    show (p.val * 128 + q.val) * 512 + h.val = r.val * 512 + h.val
    rw [hr])).trans ?_
  show max ((broadcastTo S32x128x512 (shapeCast S32x1x512 u shapeCasts_S32x512_S32x1x512) broadcasts_S32x1x512_S32x128x512 (ix3 p q h)
      + broadcastTo S32x128x512 (shapeCast S1x128x512 v shapeCasts_S128x512_S1x128x512) broadcasts_S1x128x512_S32x128x512 (ix3 p q h))
      + broadcastTo S32x128x512 (shapeCast S1x1x512 (shapeCast S1x512 x4 shapeCasts_S1x512_S1x512) shapeCasts_S1x512_S1x1x512) broadcasts_S1x1x512_S32x128x512 (ix3 p q h))
      (Ideal.ofBits .f32 0x00000000#32) = _
  have e1 : broadcastTo S32x128x512 (shapeCast S32x1x512 u shapeCasts_S32x512_S32x1x512) broadcasts_S32x1x512_S32x128x512 (ix3 p q h) = u (ix2 p h) := by
    refine (broadcastTo_apply _ broadcasts_S32x1x512_S32x128x512 (ix3 p q h) (ix3 p (0 : Fin 1) h) (fun a => ?_)).trans ?_
    · match a with
      | ⟨0, _⟩ => show p.val = if (32 : Nat) = 1 then 0 else p.val; rw [if_neg (by decide)]
      | ⟨1, _⟩ => show 0 = if (1 : Nat) = 1 then 0 else q.val; rw [if_pos rfl]
      | ⟨2, _⟩ => show h.val = if (512 : Nat) = 1 then 0 else h.val; rw [if_neg (by decide)]
    · exact shapeCast_apply u shapeCasts_S32x512_S32x1x512 (ix3 p (0 : Fin 1) h) (ix2 p h) (by
        rewrite [Shape.rowMajor_val_two, Shape.rowMajor_val_three]
        show p.val * 512 + h.val = (p.val * 1 + 0) * 512 + h.val
        omega)
  have e2 : broadcastTo S32x128x512 (shapeCast S1x128x512 v shapeCasts_S128x512_S1x128x512) broadcasts_S1x128x512_S32x128x512 (ix3 p q h) = v (ix2 q h) := by
    refine (broadcastTo_apply _ broadcasts_S1x128x512_S32x128x512 (ix3 p q h) (ix3 (0 : Fin 1) q h) (fun a => ?_)).trans ?_
    · match a with
      | ⟨0, _⟩ => show 0 = if (1 : Nat) = 1 then 0 else p.val; rw [if_pos rfl]
      | ⟨1, _⟩ => show q.val = if (128 : Nat) = 1 then 0 else q.val; rw [if_neg (by decide)]
      | ⟨2, _⟩ => show h.val = if (512 : Nat) = 1 then 0 else h.val; rw [if_neg (by decide)]
    · exact shapeCast_apply v shapeCasts_S128x512_S1x128x512 (ix3 (0 : Fin 1) q h) (ix2 q h) (by
        rewrite [Shape.rowMajor_val_two, Shape.rowMajor_val_three]
        show q.val * 512 + h.val = (0 * 128 + q.val) * 512 + h.val
        omega)
  have e3 : broadcastTo S32x128x512 (shapeCast S1x1x512 (shapeCast S1x512 x4 shapeCasts_S1x512_S1x512) shapeCasts_S1x512_S1x1x512) broadcasts_S1x1x512_S32x128x512 (ix3 p q h) = x4 (ix2 (0 : Fin 1) h) := by
    refine (broadcastTo_apply _ broadcasts_S1x1x512_S32x128x512 (ix3 p q h) (ix3 (0 : Fin 1) (0 : Fin 1) h) (fun a => ?_)).trans ?_
    · match a with
      | ⟨0, _⟩ => show 0 = if (1 : Nat) = 1 then 0 else p.val; rw [if_pos rfl]
      | ⟨1, _⟩ => show 0 = if (1 : Nat) = 1 then 0 else q.val; rw [if_pos rfl]
      | ⟨2, _⟩ => show h.val = if (512 : Nat) = 1 then 0 else h.val; rw [if_neg (by decide)]
    · rw [shapeCast_self]
      exact shapeCast_apply x4 shapeCasts_S1x512_S1x1x512 (ix3 (0 : Fin 1) (0 : Fin 1) h) (ix2 (0 : Fin 1) h) (by
        rewrite [Shape.rowMajor_val_two, Shape.rowMajor_val_three]
        show 0 * 512 + h.val = (0 * 1 + 0) * 512 + h.val
        omega)
  rw [e1, e2, e3, Ideal.ofBits_zero_f32]

/-- Row `r` of the second hidden layer. -/
theorem layer2_apply (a : FVec Ideal S4096x512 .bf16) (x5 : Vec Ideal S512x512 .f32) (x6 : Vec Ideal S1x512 .f32)
    (r : Fin 4096) (g : Fin 512) :
    layer2 a x5 x6 (ix2 r g) = max ((∑ h : Fin 512, a (ix2 r h) * x5 (ix2 h g)) + x6 (ix2 (0 : Fin 1) g)) 0 := by
  unfold layer2
  show max (matmul dot_S4096x512_S512x512_S4096x512_1_0_0_1_n_n none a (truncf .bf16 x5 bitsLt_bf16_f32) (constant S4096x512 .f32 0x00000000#32) (ix2 r g)
      + broadcastTo S4096x512 (shapeCast S1x512 x6 shapeCasts_S1x512_S1x512) broadcasts_S1x512_S4096x512 (ix2 r g)) (Ideal.ofBits .f32 0x00000000#32) = _
  have e1 := Cert.LibPlainMatmul.matmul_zero_apply dot_S4096x512_S512x512_S4096x512_1_0_0_1_n_n rfl rfl lhsW_0 lhsW_1 rhsW_0 rhsW_1 none a (truncf .bf16 x5 bitsLt_bf16_f32) r g
  have e2 : broadcastTo S4096x512 (shapeCast S1x512 x6 shapeCasts_S1x512_S1x512) broadcasts_S1x512_S4096x512 (ix2 r g) = x6 (ix2 (0 : Fin 1) g) := by
    rw [shapeCast_self]
    exact broadcastTo_apply x6 broadcasts_S1x512_S4096x512 (ix2 r g) (ix2 (0 : Fin 1) g) (fun d => by
      match d with
      | ⟨0, _⟩ => show 0 = if (1 : Nat) = 1 then 0 else r.val; rw [if_pos rfl]
      | ⟨1, _⟩ => show g.val = if (512 : Nat) = 1 then 0 else g.val; rw [if_neg (by decide)])
  rw [e1, e2, Ideal.ofBits_zero_f32]
  rfl

/-- Entry (p, q) of the tile is the last layer at row `p · 128 + q`. -/
theorem layer3_apply (a : FVec Ideal S4096x512 .bf16) (x7 : Vec Ideal S512x1 .f32) (x8 : Vec Ideal S1x1 .f32)
    (p : Fin 32) (q : Fin 128) (r : Fin 4096) (hr : r.val = p.val * 128 + q.val) :
    layer3 a x7 x8 (ix2 p q) = (∑ g : Fin 512, a (ix2 r g) * x7 (ix2 g (0 : Fin 1))) + x8 (ix2 (0 : Fin 1) (0 : Fin 1)) := by
  unfold layer3
  refine (shapeCast_apply _ shapeCasts_S4096x1_S32x128 (ix2 p q) (ix2 r (0 : Fin 1)) (by
    rewrite [Shape.rowMajor_val_two, Shape.rowMajor_val_two]
    show r.val * 1 + 0 = p.val * 128 + q.val
    omega)).trans ?_
  show matmul dot_S4096x512_S512x1_S4096x1_1_0_0_1_n_n none a (truncf .bf16 x7 bitsLt_bf16_f32) (constant S4096x1 .f32 0x00000000#32) (ix2 r (0 : Fin 1))
      + broadcastTo S4096x1 (shapeCast S1x1 x8 shapeCasts_S1x1_S1x1) broadcasts_S1x1_S4096x1 (ix2 r (0 : Fin 1)) = _
  have e1 := Cert.LibPlainMatmul.matmul_zero_apply dot_S4096x512_S512x1_S4096x1_1_0_0_1_n_n rfl rfl lhsO_0 lhsO_1 rhsO_0 rhsO_1 none a (truncf .bf16 x7 bitsLt_bf16_f32) r (0 : Fin 1)
  have e2 : broadcastTo S4096x1 (shapeCast S1x1 x8 shapeCasts_S1x1_S1x1) broadcasts_S1x1_S4096x1 (ix2 r (0 : Fin 1)) = x8 (ix2 (0 : Fin 1) (0 : Fin 1)) := by
    rw [shapeCast_self]
    exact broadcastTo_apply x8 broadcasts_S1x1_S4096x1 (ix2 r (0 : Fin 1)) (ix2 (0 : Fin 1) (0 : Fin 1)) (fun d => by
      match d with
      | ⟨0, _⟩ => show 0 = if (1 : Nat) = 1 then 0 else r.val; rw [if_pos rfl]
      | ⟨1, _⟩ => show 0 = if (1 : Nat) = 1 then 0 else 0; rw [if_pos rfl])
  rw [e1, e2]
  rfl

/-! ## The tile -/

/-- Entry (p, q) of what the body stores is the score of row `p` of the x-block against row `q` of the y-block, the
    parameters read off their blocks. -/
theorem tile_apply (x0 : Vec Ideal S32x128 .f32) (x1 : Vec Ideal S128x128 .f32) (x2 x3 : Vec Ideal S128x512 .f32)
    (x4 : Vec Ideal S1x512 .f32) (x5 : Vec Ideal S512x512 .f32) (x6 : Vec Ideal S1x512 .f32) (x7 : Vec Ideal S512x1 .f32)
    (x8 : Vec Ideal S1x1 .f32) (p : Fin 32) (q : Fin 128) :
    k0_pay1 (F := Ideal) (k0_pay2 x0 x1 x2 x3 x4 x5 x6) x7 x8 (ix2 p q)
      = pairScore (fun k => x0 (ix2 p k)) (fun k => x1 (ix2 q k)) (fun k h => x2 (ix2 k h)) (fun k h => x3 (ix2 k h))
          (fun h => x4 (ix2 (0 : Fin 1) h)) (fun h g => x5 (ix2 h g)) (fun g => x6 (ix2 (0 : Fin 1) g))
          (fun g => x7 (ix2 g (0 : Fin 1))) (x8 (ix2 (0 : Fin 1) (0 : Fin 1))) := by
  have hp := p.isLt
  have hq := q.isLt
  rw [body_eq, layer3_apply _ x7 x8 p q ⟨p.val * 128 + q.val, by omega⟩ rfl]
  unfold pairScore
  simp only [layer2_apply, layer1_apply _ _ x4 p q ⟨p.val * 128 + q.val, by omega⟩ rfl, projX_apply, projY_apply]

end Cert.Critic.Tile

end
-- ==== Proof.ScoreArray.lean ====
/-
  From tiles to the whole array of scores.

  The grid has 16 × 4 points; point (i, j) reads rows 32 i … 32 i + 31 of `x`, rows 128 j … 128 j + 127 of `y`, the
  parameters whole (the two halves of the first matrix as the slices rows 0 … 127 and rows 128 … 255, the biases
  as one-row arrays), and writes back tile (i, j) of the 512 × 512 result. Entry (p, q) of that tile is the score of
  row 32 i + p of `x` against row 128 j + q of `y`, so what a point writes back is its block of the array of all
  scores; the 64 tiles cover the array, which therefore ends holding all scores.
-/
import proofs.«172054_j31207232372863_1_alg».proof.Proof.Gen.KernelIdeal.Value
import proofs.«172054_j31207232372863_1_alg».proof.Proof.PairScore
import proofs.«172054_j31207232372863_1_alg».proof.Proof.TileScore
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators

namespace Cert.Critic.Arr

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the x-window follows the output's row block, the y-window its column block,
    every parameter window stays at block (0, 0), and the output's block indices range over 16 × 4. -/
theorem idx_facts : ∀ t : Fin cfg0.N,
    win0_0.index t (0 : Fin 2) = win0_9.index t (0 : Fin 2) ∧ win0_0.index t (1 : Fin 2) = 0
    ∧ win0_1.index t (0 : Fin 2) = win0_9.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 15 ∧ win0_9.index t (1 : Fin 2) ≤ 3 :=
  (by decide +kernel : ∀ t : Fin grid0.N, _)

/-- Every tile of the 16 × 4 tiling is some point's. -/
theorem idx_onto : ∀ (q0 : Fin 16) (q1 : Fin 4), ∃ t : Fin cfg0.N, win0_9.index t = ![q0.val, q1.val] :=
  (by decide +kernel : ∀ (q0 : Fin 16) (q1 : Fin 4), ∃ t : Fin grid0.N, win0_9.index t = ![q0.val, q1.val])

/-! ## The arrays the region finds -/

theorem V_half_lo (c : Dev nD) : (V m c main_v0 : S128x512.Idx → EReal)
    = extractStridedSlice S128x512 ![0, 0] (m ((c : Thread nD τ).loc main_arg2)) slices_S256x512_S128x512_0_0 := by
  dsimp only [Gen.V, Gen.hostOps0]; after_results

theorem V_half_hi (c : Dev nD) : (V m c main_v1 : S128x512.Idx → EReal)
    = extractStridedSlice S128x512 ![128, 0] (m ((c : Thread nD τ).loc main_arg2)) slices_S256x512_S128x512_128_0 := by
  dsimp only [Gen.V, Gen.hostOps0]; after_results

theorem V_bias1 (c : Dev nD) : (V m c main_v2 : S1x512.Idx → EReal)
    = shapeCast S1x512 (m ((c : Thread nD τ).loc main_arg3)) shapeCasts_S512_S1x512 := by
  dsimp only [Gen.V, Gen.hostOps0]; after_results; rfl

theorem V_bias2 (c : Dev nD) : (V m c main_v3 : S1x512.Idx → EReal)
    = shapeCast S1x512 (m ((c : Thread nD τ).loc main_arg5)) shapeCasts_S512_S1x512 := by
  dsimp only [Gen.V, Gen.hostOps0]; after_results; rfl

theorem V_bias3 (c : Dev nD) : (V m c main_v4 : S1x1.Idx → EReal)
    = shapeCast S1x1 (m ((c : Thread nD τ).loc main_arg7)) shapeCasts_S1_S1x1 := by
  dsimp only [Gen.V, Gen.hostOps0]; after_results; rfl

/-! ## Each window's block, entry by entry -/

/-- Row `p` of the x-block at point `t` is row `32 · (the output's row block) + p` of `x`. -/
theorem xblk_apply (c : Dev nD) (t : Fin cfg0.N) (p : Fin 32) (k : Fin 128) (a : Fin 512)
    (ha : a.val = win0_9.index t (0 : Fin 2) * 32 + p.val) :
    (iblk m c 0 t : Vec Ideal S32x128 .f32) (ix2 p k) = (m ((c : Thread nD τ).loc main_arg0) : S512x128.Idx → EReal) (ix2 a k) := by
  obtain ⟨e0, e1, -⟩ := idx_facts t
  unfold iblk
  rw [View.read_apply]
  show V m c main_arg0 _ = _
  refine (congrFun (V_main_arg0 m c) _).trans (congrArg _ (funext fun d => Fin.ext ?_))
  match d with
  | ⟨0, _⟩ => show win0_0.index t (0 : Fin 2) * 32 + 1 * p.val = a.val; omega
  | ⟨1, _⟩ => show win0_0.index t (1 : Fin 2) * 128 + 1 * k.val = k.val; omega

/-- Row `q` of the y-block at point `t` is row `128 · (the output's column block) + q` of `y`. -/
theorem yblk_apply (c : Dev nD) (t : Fin cfg0.N) (q : Fin 128) (k : Fin 128) (b : Fin 512)
    (hb : b.val = win0_9.index t (1 : Fin 2) * 128 + q.val) :
    (iblk m c 1 t : Vec Ideal S128x128 .f32) (ix2 q k) = (m ((c : Thread nD τ).loc main_arg1) : S512x128.Idx → EReal) (ix2 b k) := by
  obtain ⟨-, -, e0, e1, -⟩ := idx_facts t
  unfold iblk
  rw [View.read_apply]
  show V m c main_arg1 _ = _
  refine (congrFun (V_main_arg1 m c) _).trans (congrArg _ (funext fun d => Fin.ext ?_))
  match d with
  | ⟨0, _⟩ => show win0_1.index t (0 : Fin 2) * 128 + 1 * q.val = b.val; omega
  | ⟨1, _⟩ => show win0_1.index t (1 : Fin 2) * 128 + 1 * k.val = k.val; omega

/-- The third window holds rows 0 … 127 of the first matrix. -/
theorem halfLo_apply (c : Dev nD) (t : Fin cfg0.N) (k : Fin 128) (h : Fin 512) :
    (iblk m c 2 t : Vec Ideal S128x512 .f32) (ix2 k h) = (m ((c : Thread nD τ).loc main_arg2) : S256x512.Idx → EReal) (ix2 (lo k) h) := by
  obtain ⟨-, -, -, -, e0, e1, -⟩ := idx_facts t
  unfold iblk
  rw [View.read_apply]
  show V m c main_v0 _ = _
  rw [V_half_lo]
  refine extractStridedSlice_apply _ _ slices_S256x512_S128x512_0_0 _ (ix2 (lo k) h) (fun d => ?_)
  match d with
  | ⟨0, _⟩ => show k.val = 0 + (win0_2.index t (0 : Fin 2) * 128 + 1 * k.val); omega
  | ⟨1, _⟩ => show h.val = 0 + (win0_2.index t (1 : Fin 2) * 512 + 1 * h.val); omega

/-- The fourth window holds rows 128 … 255 of the first matrix. -/
theorem halfHi_apply (c : Dev nD) (t : Fin cfg0.N) (k : Fin 128) (h : Fin 512) :
    (iblk m c 3 t : Vec Ideal S128x512 .f32) (ix2 k h) = (m ((c : Thread nD τ).loc main_arg2) : S256x512.Idx → EReal) (ix2 (hi k) h) := by
  obtain ⟨-, -, -, -, -, -, e0, e1, -⟩ := idx_facts t
  unfold iblk
  rw [View.read_apply]
  show V m c main_v1 _ = _
  rw [V_half_hi]
  refine extractStridedSlice_apply _ _ slices_S256x512_S128x512_128_0 _ (ix2 (hi k) h) (fun d => ?_)
  match d with
  | ⟨0, _⟩ => show 128 + k.val = 128 + (win0_3.index t (0 : Fin 2) * 128 + 1 * k.val); omega
  | ⟨1, _⟩ => show h.val = 0 + (win0_3.index t (1 : Fin 2) * 512 + 1 * h.val); omega

/-- The fifth window holds the first bias as one row. -/
theorem bias1_apply (c : Dev nD) (t : Fin cfg0.N) (h : Fin 512) :
    (iblk m c 4 t : Vec Ideal S1x512 .f32) (ix2 (0 : Fin 1) h) = (m ((c : Thread nD τ).loc main_arg3) : S512.Idx → EReal) (ix1 h) := by
  obtain ⟨-, -, -, -, -, -, -, -, e0, e1, -⟩ := idx_facts t
  unfold iblk
  rw [View.read_apply]
  show V m c main_v2 _ = _
  rw [V_bias1]
  refine shapeCast_apply _ shapeCasts_S512_S1x512 _ (ix1 h) ?_
  rewrite [Shape.rowMajor_val_one, Shape.rowMajor_val_two]
  show h.val = (win0_4.index t (0 : Fin 2) * 1 + 1 * 0) * 512 + (win0_4.index t (1 : Fin 2) * 512 + 1 * h.val)
  omega

/-- The sixth window holds the second matrix. -/
theorem mat2_apply (c : Dev nD) (t : Fin cfg0.N) (h g : Fin 512) :
    (iblk m c 5 t : Vec Ideal S512x512 .f32) (ix2 h g) = (m ((c : Thread nD τ).loc main_arg4) : S512x512.Idx → EReal) (ix2 h g) := by
  obtain ⟨-, -, -, -, -, -, -, -, -, -, e0, e1, -⟩ := idx_facts t
  unfold iblk
  rw [View.read_apply]
  show V m c main_arg4 _ = _
  refine (congrFun (V_main_arg4 m c) _).trans (congrArg _ (funext fun d => Fin.ext ?_))
  match d with
  | ⟨0, _⟩ => show win0_5.index t (0 : Fin 2) * 512 + 1 * h.val = h.val; omega
  | ⟨1, _⟩ => show win0_5.index t (1 : Fin 2) * 512 + 1 * g.val = g.val; omega

/-- The seventh window holds the second bias as one row. -/
theorem bias2_apply (c : Dev nD) (t : Fin cfg0.N) (g : Fin 512) :
    (iblk m c 6 t : Vec Ideal S1x512 .f32) (ix2 (0 : Fin 1) g) = (m ((c : Thread nD τ).loc main_arg5) : S512.Idx → EReal) (ix1 g) := by
  obtain ⟨-, -, -, -, -, -, -, -, -, -, -, -, e0, e1, -⟩ := idx_facts t
  unfold iblk
  rw [View.read_apply]
  show V m c main_v3 _ = _
  rw [V_bias2]
  refine shapeCast_apply _ shapeCasts_S512_S1x512 _ (ix1 g) ?_
  rewrite [Shape.rowMajor_val_one, Shape.rowMajor_val_two]
  show g.val = (win0_6.index t (0 : Fin 2) * 1 + 1 * 0) * 512 + (win0_6.index t (1 : Fin 2) * 512 + 1 * g.val)
  omega

/-- The eighth window holds the last layer's column. -/
theorem col3_apply (c : Dev nD) (t : Fin cfg0.N) (g : Fin 512) :
    (iblk m c 7 t : Vec Ideal S512x1 .f32) (ix2 g (0 : Fin 1)) = (m ((c : Thread nD τ).loc main_arg6) : S512x1.Idx → EReal) (ix2 g (0 : Fin 1)) := by
  obtain ⟨-, -, -, -, -, -, -, -, -, -, -, -, -, -, e0, e1, -⟩ := idx_facts t
  unfold iblk
  rw [View.read_apply]
  show V m c main_arg6 _ = _
  refine (congrFun (V_main_arg6 m c) _).trans (congrArg _ (funext fun d => Fin.ext ?_))
  match d with
  | ⟨0, _⟩ => show win0_7.index t (0 : Fin 2) * 512 + 1 * g.val = g.val; omega
  | ⟨1, _⟩ => show win0_7.index t (1 : Fin 2) * 1 + 1 * 0 = 0; omega

/-- The ninth window holds the last bias as a 1 × 1 array. -/
theorem bias3_apply (c : Dev nD) (t : Fin cfg0.N) :
    (iblk m c 8 t : Vec Ideal S1x1 .f32) (ix2 (0 : Fin 1) (0 : Fin 1)) = (m ((c : Thread nD τ).loc main_arg7) : S1.Idx → EReal) (ix1 (0 : Fin 1)) := by
  obtain ⟨-, -, -, -, -, -, -, -, -, -, -, -, -, -, -, -, e0, e1, -⟩ := idx_facts t
  unfold iblk
  rw [View.read_apply]
  show V m c main_v4 _ = _
  rw [V_bias3]
  refine shapeCast_apply _ shapeCasts_S1_S1x1 _ (ix1 (0 : Fin 1)) ?_
  rewrite [Shape.rowMajor_val_one, Shape.rowMajor_val_two]
  show 0 = (win0_8.index t (0 : Fin 2) * 1 + 1 * 0) * 1 + (win0_8.index t (1 : Fin 2) * 1 + 1 * 0)
  omega

/-! ## What a point writes back -/

/-- All scores of the launch's arguments. -/
abbrev allScores (c : Dev nD) : S512x512.Idx → EReal :=
  scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Entry (p, q) of the tile the body leaves at point `t` is the score of row `32 i + p` of `x` against row
    `128 j + q` of `y`, (i, j) the output's block index at `t`. -/
theorem tile_entry (c : Dev nD) (t : Fin cfg0.N) (p : Fin 32) (q : Fin 128) (a b : Fin 512)
    (ha : a.val = win0_9.index t (0 : Fin 2) * 32 + p.val) (hb : b.val = win0_9.index t (1 : Fin 2) * 128 + q.val) :
    out0_9 (iblk m c 0 t) (iblk m c 1 t) (iblk m c 2 t) (iblk m c 3 t) (iblk m c 4 t) (iblk m c 5 t) (iblk m c 6 t) (iblk m c 7 t) (iblk m c 8 t) (ix2 p q)
      = allScores m c (ix2 a b) := by
  unfold out0_9
  rw [View.canon_unit_zero hz]
  simp only [View.ld_unit_zero (S := S32x128) hz, View.ld_unit_zero (S := S128x128) hz, View.ld_unit_zero (S := S128x512) hz,
    View.ld_unit_zero (S := S1x512) hz, View.ld_unit_zero (S := S512x512) hz, View.ld_unit_zero (S := S512x1) hz,
    View.ld_unit_zero (S := S1x1) hz]
  refine (Tile.tile_apply (iblk m c 0 t) (iblk m c 1 t) (iblk m c 2 t) (iblk m c 3 t) (iblk m c 4 t) (iblk m c 5 t) (iblk m c 6 t) (iblk m c 7 t) (iblk m c 8 t) p q).trans ?_
  refine Eq.trans ?_ (scores_apply _ _ _ _ _ _ _ _ a b).symm
  unfold score
  simp only [xblk_apply m c t p _ a ha, yblk_apply m c t q _ b hb, halfLo_apply, halfHi_apply, bias1_apply, mat2_apply, bias2_apply,
    col3_apply, bias3_apply]

/-- An index of the result array lies in point `t`'s tile iff each coordinate lies in the tile's range on its axis. -/
theorem mem_tile (t : Fin cfg0.N) (i : S512x512.Idx) :
    i ∈ ((cfg0.win 9).blk t).view.set ↔ ∀ a : Fin 2, win0_9.index t a * S32x128.size a ≤ (i a).val ∧ (i a).val < win0_9.index t a * S32x128.size a + S32x128.size a := by
  show i ∈ ((View.whole main_v5).slice (win0_9.rect t)).set ↔ _
  rw [View.set_slice_whole, Rect.mem_set_unit]
  exact Iff.rfl

/-- What point `t` writes back is its tile of the array of all scores. -/
theorem flushed_eq (c : Dev nD) (t : Fin cfg0.N) :
    (dats m 0 c).flushed 9 t = ((cfg0.win 9).blk t).view.read (Elt Ideal) (allScores m c) := by
  rw [flushed9]
  obtain ⟨-, -, -, -, -, -, -, -, -, -, -, -, -, -, -, -, -, -, b0, b1⟩ := idx_facts t
  have key : (out0_9 (iblk m c 0 t) (iblk m c 1 t) (iblk m c 2 t) (iblk m c 3 t) (iblk m c 4 t) (iblk m c 5 t) (iblk m c 6 t) (iblk m c 7 t) (iblk m c 8 t) : Vec Ideal S32x128 .f32)
      = fun j : S32x128.Idx => allScores m c (ix2 (⟨win0_9.index t (0 : Fin 2) * 32 + (j 0).val, by have h32 : (j 0).val < 32 := (j 0).isLt; omega⟩ : Fin 512)
          (⟨win0_9.index t (1 : Fin 2) * 128 + (j 1).val, by have h128 : (j 1).val < 128 := (j 1).isLt; omega⟩ : Fin 512)) := by
    funext j
    obtain ⟨p, q, rfl⟩ : ∃ (p : Fin 32) (q : Fin 128), j = ix2 p q := ⟨j 0, j 1, eq_ix2 j⟩
    exact tile_entry m c t p q _ _ rfl rfl
  rw [key]
  funext j
  show allScores m c _ = allScores m c (((cfg0.win 9).blk t).view.emb j)
  refine congrArg _ (funext fun a => Fin.ext ?_)
  match a with
  | ⟨0, _⟩ => show win0_9.index t (0 : Fin 2) * 32 + (j 0).val = win0_9.index t (0 : Fin 2) * 32 + 1 * (j 0).val; omega
  | ⟨1, _⟩ => show win0_9.index t (1 : Fin 2) * 128 + (j 1).val = win0_9.index t (1 : Fin 2) * 128 + 1 * (j 1).val; omega

/-- The 64 tiles cover the 512 × 512 array: entry (r, s) lies in the tile of block (r / 32, s / 128). -/
theorem covered (i : S512x512.Idx) :
    ∃ t : Fin cfg0.N, (cfg0.win 9).flush t = true ∧ i ∈ ((cfg0.win 9).blk t).view.set := by
  have hi0 : (i 0).val < 512 := (i 0).isLt
  have hi1 : (i 1).val < 512 := (i 1).isLt
  obtain ⟨t, ht⟩ := idx_onto ⟨(i 0).val / 32, by omega⟩ ⟨(i 1).val / 128, by omega⟩
  have q0 : win0_9.index t (0 : Fin 2) = (i 0).val / 32 := congrFun ht 0
  have q1 : win0_9.index t (1 : Fin 2) = (i 1).val / 128 := congrFun ht 1
  refine ⟨t, flush0_9 t, ?_⟩
  rw [mem_tile]
  intro a
  match a with
  | ⟨0, _⟩ => show win0_9.index t (0 : Fin 2) * 32 ≤ (i 0).val ∧ (i 0).val < win0_9.index t (0 : Fin 2) * 32 + 32; omega
  | ⟨1, _⟩ => show win0_9.index t (1 : Fin 2) * 128 ≤ (i 1).val ∧ (i 1).val < win0_9.index t (1 : Fin 2) * 128 + 128; omega

/-- After the run the result array holds all scores. -/
theorem final (c : Dev nD) : (dats m 0 c).arrAt 9 cfg0.N = allScores m c :=
  (dats m 0 c).arrAt_eq_of_cover 9 (allScores m c) (fun t _ => flushed_eq m c t) covered

/-- The tiled program's run: it terminates with the result array at all scores of the arguments, which are unchanged. -/
theorem run : θ_run defs (onTc (τ := τ) (main (F := Ideal))) ⟨m, fun _ => 0, ρ⟩ fun r => ∀ c : Dev nD,
      r.2.mem ((c : Thread nD τ).loc main_v5) = allScores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.Critic.Arr

end
-- ==== Proof.RefScore.lean ====
/-
  The reference program's result, entry by entry, is the score of the pair of rows.

  The reference lays every pair (row a of x, row b of y) end to end as row b · 512 + a of a 262144 × 256 array,
  sends all rows through the three affine layers with a rectifier after the first two, folds the column of
  262144 results into a 512 × 512 array and transposes it: entry (a, b) of the result is the perceptron's value
  on row b · 512 + a, the pair (x[a], y[b]). Read at one entry, the first layer's product with the joined row is a
  sum over 256 positions, whose first 128 terms read x and whose last 128 read y (`sum_halves`).
-/
import proofs.«172054_j31207232372863_1_alg».proof.Proof.Gen.ReferenceIdeal.Read
import proofs.«172054_j31207232372863_1_alg».proof.Proof.PairScore

noncomputable section

open scoped BigOperators

namespace Cert.Critic.Ref

open Cert.ReferenceIdeal Cert.ReferenceIdeal.Gen Cert.ReferenceIdeal.Read
open Idealize.ShloMosaic Idealize.ShloMosaic.ValueIdx

variable (x0 x1 : (⟨S512x128, .f32⟩ : BufTy).Contents (Elt Ideal)) (x2 : (⟨S256x512, .f32⟩ : BufTy).Contents (Elt Ideal))
  (x3 : (⟨S512, .f32⟩ : BufTy).Contents (Elt Ideal)) (x4 : (⟨S512x512, .f32⟩ : BufTy).Contents (Elt Ideal))
  (x5 : (⟨S512, .f32⟩ : BufTy).Contents (Elt Ideal)) (x6 : (⟨S512x1, .f32⟩ : BufTy).Contents (Elt Ideal))
  (x7 : (⟨S1, .f32⟩ : BufTy).Contents (Elt Ideal))

/-! ## The joined rows -/

/-- In the first 128 positions, the joined array at (b, a, ·) holds row `a` of `x`. -/
theorem joined_lo (a b : Fin 512) (k : Fin 128) :
    val_main_v4 (F := Ideal) x0 x1 (ix3 b a (lo k)) = x0 (ix2 a k) := by
  unfold val_main_v4
  refine (concatenate_pair_apply_left (t := S512x512x256) (s₁ := S512x512x128) (s₂ := S512x512x128) (2 : Fin 3) _ _
    concatenates_S512x512x128_S512x512x128_S512x512x256_d2 (ix3 b a (lo k)) rfl (ix3 b a k) (fun d => ?_)).trans ?_
  · match d with
    | ⟨0, _⟩ => rfl
    | ⟨1, _⟩ => rfl
    | ⟨2, _⟩ => rfl
  · rw [val_main_v1_apply, val_main_v0_apply]
    exact congrArg x0 (funext fun d => Fin.ext (by match d with | ⟨0, _⟩ => rfl | ⟨1, _⟩ => rfl))

/-- In the last 128 positions, the joined array at (b, a, ·) holds row `b` of `y`. -/
theorem joined_hi (a b : Fin 512) (k : Fin 128) :
    val_main_v4 (F := Ideal) x0 x1 (ix3 b a (hi k)) = x1 (ix2 b k) := by
  unfold val_main_v4
  refine (concatenate_pair_apply_right (t := S512x512x256) (s₁ := S512x512x128) (s₂ := S512x512x128) (2 : Fin 3) _ _
    concatenates_S512x512x128_S512x512x128_S512x512x256_d2 (ix3 b a (hi k)) rfl rfl (ix3 b a k) (fun d hd => ?_) ?_).trans ?_
  · match d with
    | ⟨0, _⟩ => rfl
    | ⟨1, _⟩ => rfl
    | ⟨2, _⟩ => exact absurd rfl hd
  · show k.val + 128 = 128 + k.val
    omega
  · rw [val_main_v3_apply, val_main_v2_apply]
    exact congrArg x1 (funext fun d => Fin.ext (by match d with | ⟨0, _⟩ => rfl | ⟨1, _⟩ => rfl))

/-- Row `b · 512 + a` of the flattened pairs is the joined array's row (b, a). -/
theorem flat_idx (r : Fin 262144) (a b : Fin 512) (hr : r.val = b.val * 512 + a.val) (k : Fin 256) :
    idx_main_v5 (ix2 r k) = ix3 b a k := by
  have ha := a.isLt
  have hk := k.isLt
  funext d
  apply Fin.ext
  match d with
  | ⟨0, _⟩ => show (r.val * 256 + k.val) / 131072 = b.val; omega
  | ⟨1, _⟩ => show (r.val * 256 + k.val) / 256 % 512 = a.val; omega
  | ⟨2, _⟩ => show (r.val * 256 + k.val) % 256 = k.val; omega

theorem pairs_lo (r : Fin 262144) (a b : Fin 512) (hr : r.val = b.val * 512 + a.val) (k : Fin 128) :
    val_main_v5 (F := Ideal) x0 x1 (ix2 r (lo k)) = x0 (ix2 a k) := by
  rw [val_main_v5_apply, flat_idx r a b hr, joined_lo]

theorem pairs_hi (r : Fin 262144) (a b : Fin 512) (hr : r.val = b.val * 512 + a.val) (k : Fin 128) :
    val_main_v5 (F := Ideal) x0 x1 (ix2 r (hi k)) = x1 (ix2 b k) := by
  rw [val_main_v5_apply, flat_idx r a b hr, joined_hi]

/-! ## The layers, at row `b · 512 + a` -/

/-- The first hidden layer at pair (a, b), unit `h`: the 256-term product split into its two halves, plus the bias,
    rectified. -/
theorem hidden1 (r : Fin 262144) (a b : Fin 512) (hr : r.val = b.val * 512 + a.val) (h : Fin 512) :
    val_main_v10 (F := Ideal) x0 x1 x2 x3 (ix2 r h)
      = max (((∑ k : Fin 128, x0 (ix2 a k) * x2 (ix2 (lo k) h)) + ∑ k : Fin 128, x1 (ix2 b k) * x2 (ix2 (hi k) h)) + x3 (ix1 h)) 0 := by
  rw [val_main_v10_apply, val_main_v9_apply, val_main_v6_apply, val_main_v8_apply, val_main_v7_apply,
    val_main_call0_v0_apply, val_main_call0_cst_apply, sum_halves]
  have el : ∀ k : Fin 256, lidx_main_v6 (ix2 r h) k = ix2 r k := fun k =>
    funext fun d => Fin.ext (by match d with | ⟨0, _⟩ => rfl | ⟨1, _⟩ => rfl)
  have er : ∀ k : Fin 256, ridx_main_v6 (ix2 r h) k = ix2 k h := fun k =>
    funext fun d => Fin.ext (by match d with | ⟨0, _⟩ => rfl | ⟨1, _⟩ => rfl)
  have eb : idx_main_v7 (idx_main_v8 (ix2 r h)) = ix1 h :=
    funext fun d => Fin.ext (by match d with | ⟨0, _⟩ => rfl)
  simp only [el, er, eb, pairs_lo x0 x1 r a b hr, pairs_hi x0 x1 r a b hr, Ideal.maximumf_def, Ideal.addf_def, Ideal.ofBits_def,
    Ideal.ofBits_zero_f32]

/-- The second hidden layer at pair (a, b), unit `g`. -/
theorem hidden2 (r : Fin 262144) (a b : Fin 512) (hr : r.val = b.val * 512 + a.val) (g : Fin 512) :
    val_main_v15 (F := Ideal) x0 x1 x2 x3 x4 x5 (ix2 r g)
      = max ((∑ h : Fin 512, max (((∑ k : Fin 128, x0 (ix2 a k) * x2 (ix2 (lo k) h)) + ∑ k : Fin 128, x1 (ix2 b k) * x2 (ix2 (hi k) h)) + x3 (ix1 h)) 0 * x4 (ix2 h g)) + x5 (ix1 g)) 0 := by
  rw [val_main_v15_apply, val_main_v14_apply, val_main_v11_apply, val_main_v13_apply, val_main_v12_apply,
    val_main_call1_v0_apply, val_main_call1_cst_apply]
  have el : ∀ k : Fin 512, lidx_main_v11 (ix2 r g) k = ix2 r k := fun k =>
    funext fun d => Fin.ext (by match d with | ⟨0, _⟩ => rfl | ⟨1, _⟩ => rfl)
  have er : ∀ k : Fin 512, ridx_main_v11 (ix2 r g) k = ix2 k g := fun k =>
    funext fun d => Fin.ext (by match d with | ⟨0, _⟩ => rfl | ⟨1, _⟩ => rfl)
  have eb : idx_main_v12 (idx_main_v13 (ix2 r g)) = ix1 g :=
    funext fun d => Fin.ext (by match d with | ⟨0, _⟩ => rfl)
  simp only [el, er, eb, hidden1 x0 x1 x2 x3 r a b hr, Ideal.maximumf_def, Ideal.addf_def, Ideal.ofBits_def,
    Ideal.ofBits_zero_f32]

/-- The last layer at pair (a, b). -/
theorem output (r : Fin 262144) (a b : Fin 512) (hr : r.val = b.val * 512 + a.val) :
    val_main_v19 (F := Ideal) x0 x1 x2 x3 x4 x5 x6 x7 (ix2 r (0 : Fin 1)) = score x0 x1 x2 x3 x4 x5 x6 x7 a b := by
  rw [val_main_v19_apply, val_main_v16_apply, val_main_v18_apply, val_main_v17_apply]
  have el : ∀ k : Fin 512, lidx_main_v16 (ix2 r (0 : Fin 1)) k = ix2 r k := fun k =>
    funext fun d => Fin.ext (by match d with | ⟨0, _⟩ => rfl | ⟨1, _⟩ => rfl)
  have er : ∀ k : Fin 512, ridx_main_v16 (ix2 r (0 : Fin 1)) k = ix2 k (0 : Fin 1) := fun k =>
    funext fun d => Fin.ext (by match d with | ⟨0, _⟩ => rfl | ⟨1, _⟩ => rfl)
  have eb : idx_main_v17 (idx_main_v18 (ix2 r (0 : Fin 1))) = ix1 (0 : Fin 1) :=
    funext fun d => Fin.ext (by match d with | ⟨0, _⟩ => rfl)
  simp only [el, er, eb, hidden2 x0 x1 x2 x3 x4 x5 r a b hr, Ideal.addf_def]
  rfl

/-! ## The result array -/

/-- The reference's result is the array of all scores: entry (a, b), after the fold into 512 × 512 and the
    transposition, is row `b · 512 + a` of the column of results. -/
theorem result_eq : val_main_v21 (F := Ideal) x0 x1 x2 x3 x4 x5 x6 x7 = scores x0 x1 x2 x3 x4 x5 x6 x7 := by
  funext i
  obtain ⟨a, b, rfl⟩ : ∃ (a b : Fin 512), i = ix2 a b := ⟨i 0, i 1, eq_ix2 i⟩
  rw [val_main_v21_apply, val_main_v20_apply, scores_apply]
  have ha := a.isLt
  have hb := b.isLt
  have e : idx_main_v20 (idx_main_v21 (ix2 a b)) = ix2 (⟨b.val * 512 + a.val, by omega⟩ : Fin 262144) (0 : Fin 1) :=
    funext fun d => Fin.ext (by
      match d with
      | ⟨0, _⟩ => show (b.val * 512 + a.val) / 1 = b.val * 512 + a.val; omega
      | ⟨1, _⟩ => rfl)
  rw [e]
  exact output x0 x1 x2 x3 x4 x5 x6 x7 _ a b rfl

end Cert.Critic.Ref

end
-- ==== Proof.lean ====
/-
  All-pairs critic scores: a tiled program against a plain one, over the extended reals.

  Both programs take 512 rows `x[a]` and 512 rows `y[b]` of 128 numbers each and the parameters of a three-layer
  perceptron (256 → 512 → 512 → 1, a rectifier after the first two layers) and return the 512 × 512 array whose
  entry (a, b) is the perceptron's value on `x[a]` and `y[b]` laid end to end.

  The plain program builds all 262144 joined rows, applies the layers to that one tall array, and folds and
  transposes the results (Proof/RefScore.lean). The tiled program never joins the rows: at each of its 16 × 4 grid
  points it multiplies a 32-row block of `x` by the upper half of the first matrix and a 128-row block of `y` by the
  lower half, adds the two products over all 32 × 128 pairs, and carries on with the remaining layers on the 4096
  pairs of the tile (Proof/TileScore.lean, Proof/ScoreArray.lean). The two agree because a sum over the 256 joined
  positions is the sum over the first 128 plus the sum over the last 128 (Proof/PairScore.lean); addition of
  extended reals is commutative and associative, so this needs no finiteness of the inputs, and changes of float
  format are the identity on extended reals.

  The three frame claims are the generated frames (the plain program's from its generated run); nothing was rewritten
  by the idealization, so the preservation claim is trivial.
-/
import proofs.«172054_j31207232372863_1_alg».proof.Defs
import proofs.«172054_j31207232372863_1_alg».proof.Proof.Gen.Kernel
import proofs.«172054_j31207232372863_1_alg».proof.Proof.Gen.Kernel.Skeleton
import proofs.«172054_j31207232372863_1_alg».proof.Proof.Gen.Kernel.Launch
import proofs.«172054_j31207232372863_1_alg».proof.Proof.Gen.Kernel.Points
import proofs.«172054_j31207232372863_1_alg».proof.Proof.Gen.Kernel.Frame
import proofs.«172054_j31207232372863_1_alg».proof.Proof.Gen.KernelIdeal
import proofs.«172054_j31207232372863_1_alg».proof.Proof.Gen.KernelIdeal.Skeleton
import proofs.«172054_j31207232372863_1_alg».proof.Proof.Gen.KernelIdeal.Launch
import proofs.«172054_j31207232372863_1_alg».proof.Proof.Gen.KernelIdeal.Points
import proofs.«172054_j31207232372863_1_alg».proof.Proof.Gen.KernelIdeal.Frame
import proofs.«172054_j31207232372863_1_alg».proof.Proof.Gen.ReferenceIdeal
import proofs.«172054_j31207232372863_1_alg».proof.Proof.Gen.Pre_finite_inputs
import proofs.«172054_j31207232372863_1_alg».proof.Proof.Gen.KernelIdeal.Value
import proofs.«172054_j31207232372863_1_alg».proof.Proof.Gen.ReferenceIdeal.Run
import proofs.«172054_j31207232372863_1_alg».proof.Proof.Gen.ReferenceIdeal.Read
import proofs.«172054_j31207232372863_1_alg».proof.Proof.ScoreArray
import proofs.«172054_j31207232372863_1_alg».proof.Proof.RefScore
import Idealize.ShloMosaic.Adequacy
import Idealize.ShloMosaic.Init

noncomputable section

namespace Cert.Proof

open Idealize.ShloMosaic Idealize.SL.Sem

/-- The tiled program as printed runs and leaves its arguments unchanged. -/
theorem frame_kernel : Cert.frame_Kernel := fun m ρ _ => Cert.Kernel.Gen.frame m ρ

/-- So does the tiled program read over the extended reals. -/
theorem frame_kernelIdeal : Cert.frame_KernelIdeal := fun m ρ _ => Cert.KernelIdeal.Gen.frame m ρ

/-- The plain program runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the array of all scores. -/
theorem algebraic : Cert.algebraic_KernelIdeal_ReferenceIdeal := by
  intro m ρ m' ρ' _ hagree
  refine ⟨fun c => Cert.Critic.Arr.allScores m c, Cert.Critic.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v21_eq, Cert.Critic.Ref.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
